-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x192 : S_.BroadcastsInDim S96x192 (![] : Fin 0 → Fin S96x192.rank)
  reducesTo_S96x192_S_d0_1 : S96x192.ReducesTo [0, 1] S_

variable [Facts]

def fn {F : FTy → Type} [FloatOps F] (main_arg0 : FVec F S50000x96 .f32) (main_arg1 : IVec S800000x2 32) (main_arg2 : IVec S50000 32) (main_arg3 : FVec F S96x192 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x192 .f32 := Host.absf main_arg3
  let main_cst_0 : FVec F S_ .f32 := constant S_ .f32 0x7F800000#32
  let main_v5 : FVec F S96x192 .f32 := broadcastInDim S96x192 ![] bcast_S_S96x192 main_cst_0
  let main_v6 : IVec S96x192 1 := cmpf .olt main_v4 main_v5
  let main_c_1 : IVec S_ 1 := constantI S_ 1 1#1
  let main_v7 : IVec S_ 1 := (fun x v => Host.reduce IntOp.andi x v reducesTo_S96x192_S_d0_1 h_S_) main_v6 main_c_1
  let main_v8 : IVec S_ 1 := andi main_v3 main_v7
  main_v8
-- ==== Kernel.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S800000x1 : Shape := ⟨2, ![800000, 1]⟩
abbrev S800000 : Shape := ⟨1, ![800000]⟩
abbrev S_ : Shape := ⟨0, ![]⟩
abbrev S800000x96 : Shape := ⟨2, ![800000, 96]⟩
abbrev S50000x1 : Shape := ⟨2, ![50000, 1]⟩
abbrev S192x96 : Shape := ⟨2, ![192, 96]⟩
abbrev S2000x96 : Shape := ⟨2, ![2000, 96]⟩
abbrev S2000x1 : Shape := ⟨2, ![2000, 1]⟩
abbrev S2000x192 : Shape := ⟨2, ![2000, 192]⟩
abbrev S2000 : Shape := ⟨1, ![2000]⟩

abbrev nBuf : Space → Nat
  | .hbm => 33
  | .vmem => 9
  | .smem => 0
  | _ => 0

abbrev bufTy : (tb : Table) → Fin (tcTables nBuf tb) → BufTy
  | .hbm, ⟨0, _⟩ => ⟨S50000x96, .f32⟩
  | .hbm, ⟨1, _⟩ => ⟨S800000x2, .i32⟩
  | .hbm, ⟨2, _⟩ => ⟨S50000, .i32⟩
  | .hbm, ⟨3, _⟩ => ⟨S96x192, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x96, .f32⟩
  | .hbm, ⟨17, _⟩ => ⟨S_, .f32⟩
  | .hbm, ⟨18, _⟩ => ⟨S50000x96, .f32⟩
  | .hbm, ⟨19, _⟩ => ⟨S800000x1, .i32⟩
  | .hbm, ⟨20, _⟩ => ⟨S50000x96, .f32⟩
  | .hbm, ⟨21, _⟩ => ⟨S_, .i32⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S192x96, .f32⟩
  | .hbm, ⟨32, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x1, .f32⟩
  | .local _ .vmem, ⟨5, _⟩ => ⟨S2000x1, .f32⟩
  | .local _ .vmem, ⟨6, _⟩ => ⟨S192x96, .f32⟩
  | .local _ .vmem, ⟨7, _⟩ => ⟨S2000x96, .f32⟩
  | .local _ .vmem, ⟨8, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  shapeCasts_S50000_S50000x1 : S50000.ShapeCasts S50000x1
  transposes_S96x192_S192x96_1_0 : S96x192.Transposes [1, 0] S192x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  concatenates_S2000x96_S2000x96_S2000x192_d1 : Shape.Concatenates [S2000x96, S2000x96] S2000x192 1
  bitsLt_bf16_f32 : FTy.bits .bf16 < FTy.bits .f32
  inb_S192x96_S192x96_0_0 : ∀ a, (![0, 0] : Fin 2 → Nat) a + S192x96.size a ≤ S192x96.size a
  h_S192x96 : 0 < S192x96.numel
  shapeCasts_S192x96_S192x96 : S192x96.ShapeCasts S192x96
  reduces_S2000x96_S2000 : S2000x96.Reduces [1] S2000
  shapeCasts_S2000_S2000x1 : S2000.ShapeCasts S2000x1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x192_S192x96_S2000x96_1_0_0_1_n_n_wf : DotDims.WF S2000x192 S192x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x96.size a ≤ S192x96.size a
  hwx0_3 : ∀ i : grid0.Coords, EltTy.bits .f32 = 32 ∨ (Rect.block (s := S192x96) S192x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x96.size a ≤ S50000x96.size a
  hwx0_4 : ∀ i : grid0.Coords, EltTy.bits .f32 = 32 ∨ (Rect.block (s := S50000x96) S2000x96.size (cc0_transform_4 i) (hinb0_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x192_S192x96_S2000x96_1_0_0_1_n_n : DotDims S2000x192 S192x96 S2000x96 where
  lhsContracting := [1]
  rhsContracting := [0]
  lhsNonContracting := [0]
  rhsNonContracting := [1]
  lhsBatch := []
  rhsBatch := []
  wf := dot_S2000x192_S192x96_S2000x96_1_0_0_1_n_n_wf

abbrev win0_0 : Pipeline.Window sig grid0 :=
  Pipeline.Window.ofSpec (Memref.whole main_v13) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S192x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S2000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S800000x1 : Shape := ⟨2, ![800000, 1]⟩
abbrev S800000 : Shape := ⟨1, ![800000]⟩
abbrev S_ : Shape := ⟨0, ![]⟩
abbrev S800000x96 : Shape := ⟨2, ![800000, 96]⟩
abbrev S50000x1 : Shape := ⟨2, ![50000, 1]⟩
abbrev S50000x192 : Shape := ⟨2, ![50000, 192]⟩
abbrev S192x96 : Shape := ⟨2, ![192, 96]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x2, .i32⟩
  | .hbm, ⟨2, _⟩ => ⟨S50000, .i32⟩
  | .hbm, ⟨3, _⟩ => ⟨S96x192, .f32⟩
  | .hbm, ⟨4, _⟩ => ⟨S800000x1, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x96, .f32⟩
  | .hbm, ⟨15, _⟩ => ⟨S800000x1, .i32⟩
  | .hbm, ⟨16, _⟩ => ⟨S800000, .i32⟩
  | .hbm, ⟨17, _⟩ => ⟨S_, .f32⟩
  | .hbm, ⟨18, _⟩ => ⟨S50000x96, .f32⟩
  | .hbm, ⟨19, _⟩ => ⟨S800000x1, .i32⟩
  | .hbm, ⟨20, _⟩ => ⟨S50000x96, .f32⟩
  | .hbm, ⟨21, _⟩ => ⟨S_, .i32⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x96, .f32⟩
  | .hbm, ⟨32, _⟩ => ⟨S50000x96, .f32⟩
  | .hbm, ⟨33, _⟩ => ⟨S50000x192, .f32⟩
  | .hbm, ⟨34, _⟩ => ⟨S192x96, .f32⟩
  | .hbm, ⟨35, _⟩ => ⟨S50000x96, .f32⟩
  | .hbm, ⟨36, _⟩ => ⟨S_, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x96, .f32⟩
  | .hbm, ⟨48, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  concatenates_S50000x96_S50000x96_S50000x192_d1 : Shape.Concatenates [S50000x96, S50000x96] S50000x192 1
  transposes_S96x192_S192x96_1_0 : S96x192.Transposes [1, 0] S192x96
  reducesTo_S50000x96_S50000_d1 : S50000x96.ReducesTo [1] S50000
  h_S_ : 0 < S_.numel
  bcast_S_S50000x1 : S_.BroadcastsInDim S50000x1 (![] : Fin 0 → Fin S50000x1.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf

class Facts : Prop extends Facts₀ where

variable [Facts]
-- ==== Proof.SageRow.lean ====
/-
  One row of the layer, over the extended reals.

  For a node with aggregated neighbour features `a`, own features `f` (96 entries each) and the reciprocal `s` of its
  clamped degree, the layer joins the scaled aggregate and the features into one vector of 192 entries,

      joined k = a k * s            for k < 96,
      joined k = f (k - 96)         for 96 ≤ k,

  multiplies it by the 192 × 96 matrix `wt` (the transposed weight), clamps every entry of the product at zero from
  below, and divides the clamped vector by its Euclidean norm, the norm itself clamped from below at a small positive
  floor:

      lin q    = max (∑ k, joined k * wt (k, q)) 0
      out q    = lin q / max (√(∑ q', lin q' * lin q')) floor.

  A row of the result depends on that row of the aggregate, of the features and of the scale column only, and on the
  whole matrix: so the same function describes a block of rows and the whole array. The zero and the floor are kept
  as the words the two programs spell them with; nothing below evaluates them.
-/
import Idealize.ShloMosaic.PureOps.Ideal
import Idealize.ShloMosaic.Lib.ValueIdx

noncomputable section

namespace Cert.SageRow

open Idealize.ShloMosaic Idealize.ShloMosaic.ValueIdx

/-- The clamp of the product: the word of +0.0. -/
abbrev zeroWord : EReal := Ideal.ofBits .f32 0x00000000#32
/-- The floor of the norm: the single-precision word nearest to 10⁻¹². -/
abbrev floorWord : EReal := Ideal.ofBits .f32 0x2B8CBCCC#32

/-- The scaled aggregate followed by the features. -/
def joined (a f : Fin 96 → EReal) (s : EReal) (k : Fin 192) : EReal :=
  if hk : k.val < 96 then a ⟨k.val, hk⟩ * s else f ⟨k.val - 96, by have := k.isLt; omega⟩

/-- Entry `q` of the joined vector times the matrix, clamped at zero from below. -/
def lin (a f : Fin 96 → EReal) (s : EReal) (wt : (⟨2, ![192, 96]⟩ : Shape).Idx → EReal) (q : Fin 96) : EReal :=
  max (∑ k : Fin 192, joined a f s k * wt (ix2 k q)) zeroWord

/-- Entry `q` of the clamped vector over its norm, the norm clamped from below at the floor. -/
def out (a f : Fin 96 → EReal) (s : EReal) (wt : (⟨2, ![192, 96]⟩ : Shape).Idx → EReal) (q : Fin 96) : EReal :=
  Ideal.div (lin a f s wt q) (max (Ideal.sqrt (∑ q' : Fin 96, lin a f s wt q' * lin a f s wt q')) floorWord)

/-- The whole array of `n` rows: row `p` from row `p` of the aggregate, of the features and of the scale column. -/
def layer {n : ℕ} (agg feat : (⟨2, ![n, 96]⟩ : Shape).Idx → EReal) (inv : (⟨2, ![n, 1]⟩ : Shape).Idx → EReal)
    (wt : (⟨2, ![192, 96]⟩ : Shape).Idx → EReal) : (⟨2, ![n, 96]⟩ : Shape).Idx → EReal :=
  fun i => out (fun j => agg (ix2 (i 0) j)) (fun j => feat (ix2 (i 0) j)) (inv (ix2 (i 0) (0 : Fin 1))) wt (i 1)

theorem layer_apply {n : ℕ} (agg feat : (⟨2, ![n, 96]⟩ : Shape).Idx → EReal) (inv : (⟨2, ![n, 1]⟩ : Shape).Idx → EReal)
    (wt : (⟨2, ![192, 96]⟩ : Shape).Idx → EReal) (p : Fin n) (q : Fin 96) :
    layer agg feat inv wt (ix2 p q)
      = out (fun j => agg (ix2 p j)) (fun j => feat (ix2 p j)) (inv (ix2 p (0 : Fin 1))) wt q := rfl

end Cert.SageRow

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.LibColumn.lean ====
/-
  A row sum kept as a column: two layout steps read at an index, for any element type and any extents, and the
  square root of a vector of extended reals read at an index.

  * a vector [a] viewed as a column [a, 1] reads, at (p, u), the vector at p;
  * a column [a, 1] broadcast along the columns to [a, b] reads, at (p, q), the column at (p, 0).
-/
import Idealize.ShloMosaic.Lib.Pipeline.Value
import Idealize.ShloMosaic.Lib.ValueIdx

noncomputable section

namespace Cert.NegDist.Column

open Idealize.ShloMosaic Idealize.ShloMosaic.ValueIdx

section Layout
variable {α : Type}

/-- A vector [a] viewed as a column [a, 1] reads, at (p, u), the vector at p: both sit at row-major position p. -/
theorem column_of_vector_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast along the columns to [a, b] reads, at (p, q), the column at (p, 0): the row coordinate
    is kept (also when a = 1, where it is 0 anyway) and the unit axis reads its one coordinate. -/
theorem column_broadcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The root of a vector of extended reals at an index is the root of the element. -/
theorem sqrt_apply {s : Shape} {φ : FTy} (a : FVec Ideal s φ) (i : s.Idx) : sqrt a i = Ideal.sqrt (a i) := rfl

end Cert.NegDist.Column

end
-- ==== Proof.KernelRow.lean ====
/-
  What the kernel body stores, entry by entry, at the ideal values.

  The body works on a block of 2000 rows. Its one store writes, at row `p` and column `q` of the block, the row
  function `Cert.SageRow.out` of row `p` of the aggregate block, of the feature block and of the scale column, and of
  the whole transposed weight: the scaled aggregate and the features are joined side by side (192 columns), the
  narrowing of both matrix operands to a 16-bit format is the identity on extended reals, the product into the zero
  accumulator is the plain sum over the 192 joined columns, the row's sum of squares is a sum over the 96 columns,
  and the column of norms is repeated along the columns before the division.
-/
import proofs.«128004_j16415365006092_1_alg».proof.Proof.Gen.KernelIdeal.Skeleton
import proofs.«128004_j16415365006092_1_alg».proof.Proof.SageRow
import proofs.«128004_j16415365006092_1_alg».proof.Proof.LibPlainDot
import proofs.«128004_j16415365006092_1_alg».proof.Proof.LibRowLayout
import proofs.«128004_j16415365006092_1_alg».proof.Proof.LibColumn

noncomputable section

namespace Cert.KernelIdeal.RowValue

open Cert.KernelIdeal Cert.KernelIdeal.Gen Idealize.ShloMosaic Idealize.ShloMosaic.TcCoe Idealize.ShloMosaic.ValueIdx
open Cert.NegDist

/-- Column `k` of row `p` of the joined block: below column 96 the aggregate's entry times the row's scale (the scale
    column repeated along the columns), from column 96 on the feature block's entry 96 columns back. -/
theorem joined_apply (x0 x1 : Vec Ideal S2000x96 .f32) (x2 : Vec Ideal S2000x1 .f32)
    (h0 : S2000x96.ShapeCasts S2000x96) (h2 : S2000x1.ShapeCasts S2000x1) (hb : S2000x1.Broadcasts S2000x96)
    (hc : Shape.Concatenates [S2000x96, S2000x96] S2000x192 1) (p : Fin 2000) (k : Fin 192) :
    concatenate S2000x192 1
        [⟨S2000x96, mulf (F := Ideal) (φ := .f32) (shapeCast S2000x96 x0 h0) (broadcastTo S2000x96 (shapeCast S2000x1 x2 h2) hb)⟩, ⟨S2000x96, x1⟩]
        hc (ix2 p k)
      = Cert.SageRow.joined (fun j => x0 (ix2 p j)) (fun j => x1 (ix2 p j)) (x2 (ix2 p (0 : Fin 1))) k := by
  rw [Cert.RowLayout.concatCols_apply _ _ hc rfl p k]
  unfold Cert.SageRow.joined
  by_cases hk : k.val < 96
  · rw [dif_pos hk, dif_pos hk, mulf_apply, shapeCast_self, Column.column_broadcast_apply, shapeCast_self]
  · rw [dif_neg hk, dif_neg hk]

/-- Entry `(p, q)` of the product clamped at zero: the sum over the 192 joined columns of the joined entry times the
    weight's entry `(k, q)`, then the maximum with zero. -/
theorem lin_apply (x0 x1 : Vec Ideal S2000x96 .f32) (x2 : Vec Ideal S2000x1 .f32) (x3 : Vec Ideal S192x96 .f32)
    (h0 : S2000x96.ShapeCasts S2000x96) (h2 : S2000x1.ShapeCasts S2000x1) (hb : S2000x1.Broadcasts S2000x96)
    (hc : Shape.Concatenates [S2000x96, S2000x96] S2000x192 1) (h3 : S192x96.ShapeCasts S192x96)
    (hlt : FTy.bits .bf16 < FTy.bits .f32) (p : Fin 2000) (q : Fin 96) :
    maximumf (F := Ideal)
        (matmul (F := Ideal) dot_S2000x192_S192x96_S2000x96_1_0_0_1_n_n none
          (truncf .bf16
            (concatenate S2000x192 1
              [⟨S2000x96, mulf (F := Ideal) (φ := .f32) (shapeCast S2000x96 x0 h0) (broadcastTo S2000x96 (shapeCast S2000x1 x2 h2) hb)⟩, ⟨S2000x96, x1⟩]
              hc) hlt)
          (truncf .bf16 (shapeCast S192x96 x3 h3) hlt) (constant (F := Ideal) S2000x96 .f32 0x00000000#32))
        (broadcast S2000x96 (FloatOps.ofBits (F := Ideal) .f32 0x00000000#32)) (ix2 p q)
      = Cert.SageRow.lin (fun j => x0 (ix2 p j)) (fun j => x1 (ix2 p j)) (x2 (ix2 p (0 : Fin 1))) x3 q := by
  rw [maximumf_apply, broadcast_apply, Cert.PlainDot.matmul_zero_apply dot_S2000x192_S192x96_S2000x96_1_0_0_1_n_n rfl]
  unfold Cert.SageRow.lin
  refine congrArg₂ max (Finset.sum_congr rfl fun k _ => ?_) rfl
  rw [truncf_apply, truncf_apply, joined_apply, shapeCast_self]

/-- The stored value at entry `(p, q)` of the block is the row function of row `p` of the loaded blocks. -/
theorem pay_apply (x0 x1 : Vec Ideal S2000x96 .f32) (x2 : Vec Ideal S2000x1 .f32) (x3 : Vec Ideal S192x96 .f32)
    (p : Fin 2000) (q : Fin 96) :
    k0_pay1 (F := Ideal) x0 x1 x2 x3 (ix2 p q)
      = Cert.SageRow.out (fun j => x0 (ix2 p j)) (fun j => x1 (ix2 p j)) (x2 (ix2 p (0 : Fin 1))) x3 q := by
  unfold k0_pay1
  dsimp only
  rw [divf_apply, lin_apply x0 x1 x2 x3 _ _ _ _ _ _ p q, Column.column_broadcast_apply, maximumf_apply, broadcast_apply,
    Column.sqrt_apply, Column.column_of_vector_apply]
  unfold Cert.SageRow.out
  refine congrArg₂ Ideal.div rfl (congrArg₂ max (congrArg Ideal.sqrt ?_) rfl)
  refine (Cert.RowLayout.sumCols_apply _ _ _ _ _ p).trans (Finset.sum_congr rfl fun q' _ => ?_)
  rw [mulf_apply, lin_apply]

end Cert.KernelIdeal.RowValue

end
-- ==== Proof.KernelArray.lean ====
/-
  From blocks to the whole array.

  The grid has 25 points; point `t` works on rows `2000 · t … 2000 · t + 1999`. At point `t` the aggregate, feature and
  scale windows hold block `t` of their arrays (row `p` of a block is row `2000 · t + p` of the array, the columns the
  same), the weight window holds the whole transposed matrix at every point, and the result window's block `t` is
  written back. The stored value at row `p`, column `q` of the block is the row function of row `p` of the loaded
  blocks, that is of row `2000 · t + p` of the arrays: the block read off the whole-array layer function. The 25
  blocks cover every row (row `r` lies in block `r / 2000`), so after the run the result array is the layer function
  of the arrays as the region finds them.
-/
import proofs.«128004_j16415365006092_1_alg».proof.Proof.Gen.KernelIdeal.Value
import proofs.«128004_j16415365006092_1_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array: the layer function of the four arrays the region reads, as it finds them — the aggregate, the
    features, the scale column and the transposed weight. -/
def result (c : Dev nD) : S50000x96.Idx → EReal :=
  Cert.SageRow.layer (V m c main_v13 : S50000x96.Idx → EReal) (V m c main_arg0 : S50000x96.Idx → EReal)
    (V m c main_v19 : S50000x1.Idx → EReal) (V m c main_v20 : S192x96.Idx → EReal)

theorem hz : (![0, 0] : Fin 2 → Nat) = fun _ => 0 := funext fun a => by fin_cases a <;> rfl

/-- The printed index maps over the grid: the row-blocked windows are at block row `t`, block column 0; the weight's
    window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of block `t` as a row of the array. -/
def row (t : Fin cfg0.N) (p : Fin 2000) : Fin 50000 :=
  ⟨t.val * 2000 + p.val, by have hN : cfg0.N = 25 := N_0; have := t.isLt; have := p.isLt; omega⟩

/-- The aggregate window's block at point `t`, entry `(p, j)`, is the aggregate at row `2000 · t + p`, column `j`. -/
theorem blk_agg (c : Dev nD) (t : Fin cfg0.N) (p : Fin 2000) (j : Fin 96) :
    (iblk m c 0 t : S2000x96.Idx → EReal) (ix2 p j) = (V m c main_v13 : S50000x96.Idx → EReal) (ix2 (row t p) j) := by
  obtain ⟨e00, e01, -⟩ := idx_facts t
  have hi : ((cfg0.win 0).blk t).view.emb (ix2 p j) = (ix2 (row t p) j : S50000x96.Idx) := by
    refine funext fun a => Fin.ext ?_
    match a with
    | ⟨0, _⟩ => show win0_0.index t (0 : Fin 2) * 2000 + 1 * p.val = t.val * 2000 + p.val; omega
    | ⟨1, _⟩ => show win0_0.index t (1 : Fin 2) * 96 + 1 * j.val = j.val; omega
  unfold iblk
  rw [View.read_apply, hi]
  exact cast_eq _ _

/-- The feature window's block likewise. -/
theorem blk_feat (c : Dev nD) (t : Fin cfg0.N) (p : Fin 2000) (j : Fin 96) :
    (iblk m c 1 t : S2000x96.Idx → EReal) (ix2 p j) = (V m c main_arg0 : S50000x96.Idx → EReal) (ix2 (row t p) j) := by
  obtain ⟨-, -, e10, e11, -⟩ := idx_facts t
  have hi : ((cfg0.win 1).blk t).view.emb (ix2 p j) = (ix2 (row t p) j : S50000x96.Idx) := by
    refine funext fun a => Fin.ext ?_
    match a with
    | ⟨0, _⟩ => show win0_1.index t (0 : Fin 2) * 2000 + 1 * p.val = t.val * 2000 + p.val; omega
    | ⟨1, _⟩ => show win0_1.index t (1 : Fin 2) * 96 + 1 * j.val = j.val; omega
  unfold iblk
  rw [View.read_apply, hi]
  exact cast_eq _ _

/-- The scale window's block: entry `(p, 0)` is the scale of row `2000 · t + p`. -/
theorem blk_inv (c : Dev nD) (t : Fin cfg0.N) (p : Fin 2000) :
    (iblk m c 2 t : S2000x1.Idx → EReal) (ix2 p (0 : Fin 1)) = (V m c main_v19 : S50000x1.Idx → EReal) (ix2 (row t p) (0 : Fin 1)) := by
  obtain ⟨-, -, -, -, e20, e21, -⟩ := idx_facts t
  have hi : ((cfg0.win 2).blk t).view.emb (ix2 p (0 : Fin 1)) = (ix2 (row t p) (0 : Fin 1) : S50000x1.Idx) := by
    refine funext fun a => Fin.ext ?_
    match a with
    | ⟨0, _⟩ => show win0_2.index t (0 : Fin 2) * 2000 + 1 * p.val = t.val * 2000 + p.val; omega
    | ⟨1, _⟩ => show win0_2.index t (1 : Fin 2) * 1 + 1 * 0 = 0; omega
  unfold iblk
  rw [View.read_apply, hi]
  exact cast_eq _ _

/-- The weight window's block is the whole transposed matrix, at every point. -/
theorem blk_wt (c : Dev nD) (t : Fin cfg0.N) :
    (iblk m c 3 t : S192x96.Idx → EReal) = (V m c main_v20 : S192x96.Idx → EReal) := by
  obtain ⟨-, -, -, -, -, -, e30, e31, -⟩ := idx_facts t
  unfold iblk
  refine funext fun (y : S192x96.Idx) => ?_
  have hi : ((cfg0.win 3).blk t).view.emb y = y := by
    refine funext fun a => Fin.ext ?_
    match a with
    | ⟨0, _⟩ => show win0_3.index t (0 : Fin 2) * 192 + 1 * (y 0).val = (y 0).val; omega
    | ⟨1, _⟩ => show win0_3.index t (1 : Fin 2) * 96 + 1 * (y 1).val = (y 1).val; omega
  rw [View.read_apply, hi]
  exact cast_eq _ _

/-- What point `t` writes back is block `t` of the result array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S2000x96) hz, View.ld_unit_zero (S := S2000x1) hz, View.ld_unit_zero (S := S192x96) hz]
  obtain ⟨-, -, -, -, -, -, -, -, e40, e41⟩ := idx_facts t
  refine funext fun (y : S2000x96.Idx) => ?_
  obtain ⟨p, q, rfl⟩ : ∃ (p : Fin 2000) (q : Fin 96), y = ix2 p q := ⟨y 0, y 1, eq_ix2 y⟩
  have hi : ((cfg0.win 4).blk t).view.emb (ix2 p q) = (ix2 (row t p) q : S50000x96.Idx) := by
    refine funext fun a => Fin.ext ?_
    match a with
    | ⟨0, _⟩ => show win0_4.index t (0 : Fin 2) * 2000 + 1 * p.val = t.val * 2000 + p.val; omega
    | ⟨1, _⟩ => show win0_4.index t (1 : Fin 2) * 96 + 1 * q.val = q.val; omega
  rw [View.read_apply, hi]
  refine Eq.trans ?_ (cast_eq _ _).symm
  show k0_pay1 (F := Ideal) (iblk m c 0 t) (iblk m c 1 t) (iblk m c 2 t) (iblk m c 3 t) (ix2 p q) = _
  refine (Cert.KernelIdeal.RowValue.pay_apply (iblk m c 0 t) (iblk m c 1 t) (iblk m c 2 t) (iblk m c 3 t) p q).trans ?_
  unfold result
  rw [Cert.SageRow.layer_apply, blk_inv, blk_wt]
  refine congrArg₂ (fun a f => Cert.SageRow.out a f _ _ q) (funext fun j => blk_agg m c t p j) (funext fun j => blk_feat m c t p j)

/-- An index of the array is in point `t`'s block iff each coordinate is in the block's range on its axis. -/
theorem mem_blk (t : Fin cfg0.N) (i : S50000x96.Idx) :
    i ∈ ((cfg0.win 4).blk t).view.set ↔ ∀ a : Fin 2, win0_4.index t a * S2000x96.size a ≤ (i a).val ∧ (i a).val < win0_4.index t a * S2000x96.size a + S2000x96.size a := by
  show i ∈ ((View.whole main_v21).slice (win0_4.rect t)).set ↔ _
  rw [View.set_slice_whole, Rect.mem_set_unit]
  exact Iff.rfl

/-- Every index of the result array is in some point's block: row `r` is in block `r / 2000`. -/
theorem cover (i : S50000x96.Idx) :
    ∃ t : Fin cfg0.N, (cfg0.win 4).flush t = true ∧ i ∈ ((cfg0.win 4).blk t).view.set := by
  have hi0 : (i 0).val < 50000 := (i 0).isLt
  have hi1 : (i 1).val < 96 := (i 1).isLt
  have hN : cfg0.N = 25 := N_0
  have hN' : grid0.N = 25 := N_0
  refine ⟨⟨(i 0).val / 2000, by omega⟩, flush0_4 _, ?_⟩
  rw [mem_blk]
  obtain ⟨-, -, -, -, -, -, -, -, e40, e41⟩ := idx_facts ⟨(i 0).val / 2000, by omega⟩
  have e40' : win0_4.index ⟨(i 0).val / 2000, by omega⟩ (0 : Fin 2) = (i 0).val / 2000 := e40
  intro a
  match a with
  | ⟨0, _⟩ =>
    show win0_4.index ⟨(i 0).val / 2000, _⟩ (0 : Fin 2) * 2000 ≤ (i 0).val
      ∧ (i 0).val < win0_4.index ⟨(i 0).val / 2000, _⟩ (0 : Fin 2) * 2000 + 2000
    omega
  | ⟨1, _⟩ =>
    show win0_4.index ⟨(i 0).val / 2000, _⟩ (1 : Fin 2) * 96 ≤ (i 1).val
      ∧ (i 1).val < win0_4.index ⟨(i 0).val / 2000, _⟩ (1 : Fin 2) * 96 + 96
    omega

/-- After the run the result array is the layer function of the arrays as the region finds them. -/
theorem final (c : Dev nD) : (dats m 0 c).arrAt 4 cfg0.N = result m c :=
  (dats m 0 c).arrAt_eq_of_cover 4 (result m c) (fun t _ => flushed_eq m c t) cover

/-- The run, read: the result at the layer function, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.ReferenceRow.lean ====
/-
  The reference's result, entry by entry, at the ideal values.

  The reference works on the whole array of 50000 rows. Read one stage at a time, its result at row `p` and column `q`
  is the row function `Cert.SageRow.out` of row `p` of the aggregate (the scatter-add of the gathered rows, which is
  not opened here), of row `p` of the features, of the reciprocal clamped degree of node `p`, and of the transposed
  weight: the host's contraction is the plain sum over the 192 joined columns, its sum over the columns starts from
  the zero word, which is the real zero, and its square root, maximum and quotient are the exact operations.
-/
import proofs.«128004_j16415365006092_1_alg».proof.Proof.Gen.ReferenceIdeal.Read
import proofs.«128004_j16415365006092_1_alg».proof.Proof.SageRow
import proofs.«128004_j16415365006092_1_alg».proof.Proof.LibRowLayout

noncomputable section

namespace Cert.ReferenceIdeal.RowValue

open Cert.ReferenceIdeal Cert.ReferenceIdeal.Gen Cert.ReferenceIdeal.Read
open Idealize.ShloMosaic Idealize.ShloMosaic.TcCoe Idealize.ShloMosaic.ValueIdx

variable (x0 : (⟨S50000x96, .f32⟩ : BufTy).Contents (Elt Ideal)) (x1 : (⟨S800000x2, .i32⟩ : BufTy).Contents (Elt Ideal))
  (x2 : (⟨S50000, .i32⟩ : BufTy).Contents (Elt Ideal)) (x3 : (⟨S96x192, .f32⟩ : BufTy).Contents (Elt Ideal))

/-- Column `k` of row `p` of the joined array: below column 96 the aggregate's entry times node `p`'s scale (the scale
    vector made a column and repeated along the columns), from column 96 on the features' entry 96 columns back. -/
theorem joined_apply (p : Fin 50000) (k : Fin 192) :
    val_main_v22 (F := Ideal) x0 x1 x2 (ix2 p k)
      = Cert.SageRow.joined (fun j => val_main_v13 (F := Ideal) x0 x1 (ix2 p j)) (fun j => x0 (ix2 p j))
          (val_main_v18 (F := Ideal) x2 (ix1 p)) k := by
  unfold val_main_v22
  rw [Cert.RowLayout.concatCols_apply _ _ concatenates_S50000x96_S50000x96_S50000x192_d1 rfl p k]
  unfold Cert.SageRow.joined
  by_cases hk : k.val < 96
  · have e : idx_main_v19 (idx_main_v20 (ix2 p (⟨k.val, hk⟩ : Fin 96))) = ix1 p :=
      funext fun a => Fin.ext (by match a with | ⟨0, _⟩ => rfl)
    rw [dif_pos hk, dif_pos hk, val_main_v21_apply, val_main_v20_apply, val_main_v19_apply, e]
    rfl
  · rw [dif_neg hk, dif_neg hk]

/-- Entry `(p, q)` of the product clamped at zero. -/
theorem lin_apply (p : Fin 50000) (q : Fin 96) :
    val_main_v25 (F := Ideal) x0 x1 x2 x3 (ix2 p q)
      = Cert.SageRow.lin (fun j => val_main_v13 (F := Ideal) x0 x1 (ix2 p j)) (fun j => x0 (ix2 p j))
          (val_main_v18 (F := Ideal) x2 (ix1 p)) (val_main_v23 (F := Ideal) x3) q := by
  rw [val_main_v25_apply, val_main_v24_apply, val_main_call1_v0_apply, val_main_call1_cst_apply, Ideal.maximumf_def,
    Ideal.ofBits_def]
  unfold Cert.SageRow.lin
  refine congrArg₂ max (Finset.sum_congr rfl fun k _ => ?_) rfl
  have el : lidx_main_v24 (ix2 p q) k = ix2 p k :=
    funext fun a => Fin.ext (by match a with | ⟨0, _⟩ => rfl | ⟨1, _⟩ => rfl)
  have er : ridx_main_v24 (ix2 p q) k = ix2 k q :=
    funext fun a => Fin.ext (by match a with | ⟨0, _⟩ => rfl | ⟨1, _⟩ => rfl)
  rw [el, er, joined_apply]

/-- The result at entry `(p, q)` is the row function of row `p`. -/
theorem out_apply (p : Fin 50000) (q : Fin 96) :
    val_main_v30 (F := Ideal) x0 x1 x2 x3 (ix2 p q)
      = Cert.SageRow.out (fun j => val_main_v13 (F := Ideal) x0 x1 (ix2 p j)) (fun j => x0 (ix2 p j))
          (val_main_v18 (F := Ideal) x2 (ix1 p)) (val_main_v23 (F := Ideal) x3) q := by
  rw [val_main_v30_apply, val_main_v29_apply, val_main_v28_apply, val_main_v27_apply, val_main_cst_3_apply,
    val_main_v26_apply, val_main_call2_v2_apply, val_main_call2_v1_apply, val_main_call2_cst_apply, lin_apply]
  simp only [Ideal.hostDivf_def, Ideal.maximumf_def, Ideal.hostUnary_sqrt_def, Ideal.ofBits_def, Ideal.ofBits_zero_f32,
    zero_add]
  unfold Cert.SageRow.out
  refine congrArg₂ Ideal.div rfl (congrArg₂ max (congrArg Ideal.sqrt (Finset.sum_congr rfl fun q' _ => ?_)) rfl)
  have e : idx_main_call2_v1 (idx_main_call2_v2 (idx_main_v29 (ix2 p q))) q' = ix2 p q' :=
    funext fun a => Fin.ext (by match a with | ⟨0, _⟩ => rfl | ⟨1, _⟩ => rfl)
  rw [e, val_main_call2_v0_apply, lin_apply, Ideal.mulf_def]

end Cert.ReferenceIdeal.RowValue

end
-- ==== Proof.HostPrefix.lean ====
/-
  The arrays the kernel's region finds are the reference's stages.

  Before the region the kernel's program computes, on the host, the aggregate (the features' rows gathered at the
  edges' source nodes and scatter-added at their destination nodes, into zeros), the reciprocal of the degree
  clamped from below at 1, as a column, and the transposed weight. The reference computes the same three by the same
  operations of the same arguments, in another order of lines; so each array as the region finds it is the
  reference's stage of the arguments, as terms. Only the column differs in its last step: the kernel's program
  reshapes the vector of reciprocals to a column where the reference adds the unit axis by a broadcast; entry
  `(p, 0)` of either is entry `p` of the vector.
-/
import proofs.«128004_j16415365006092_1_alg».proof.Proof.Gen.KernelIdeal.Frame
import proofs.«128004_j16415365006092_1_alg».proof.Proof.Gen.ReferenceIdeal.Read
import proofs.«128004_j16415365006092_1_alg».proof.Proof.LibColumn
import Idealize.ShloMosaic.Lib.StableHlo.Run

noncomputable section

namespace Cert.HostPrefix

open Idealize.ShloMosaic Idealize.ShloMosaic.TcCoe Idealize.SL.Sem Idealize.ShloMosaic.StableHlo
open Idealize.ShloMosaic.ValueIdx
open Cert.KernelIdeal Cert.KernelIdeal.Gen
open Cert.NegDist

variable (m : (ℓ : Loc nD τ sig) → Buf (Elt Ideal) ℓ)

/-- The aggregate the region finds is the reference's scatter-add stage of the features and the edges. -/
theorem agg_eq (c : Dev nD) :
    (V m c main_v13 : S50000x96.Idx → EReal)
      = Cert.ReferenceIdeal.Read.val_main_v13 (F := Ideal) (m ((c.tc : Thread nD τ).loc main_arg0))
          (m ((c.tc : Thread nD τ).loc main_arg1)) := by
  dsimp only [V]
  simp only [hostOps0, hostOps0_1, hostOps0_2, List.flatten_cons, List.flatten_nil, List.append_nil, List.cons_append,
    List.nil_append]
  after_results
  rfl

/-- The transposed weight the region finds is the reference's transpose stage of the weight. -/
theorem wt_eq (c : Dev nD) :
    (V m c main_v20 : S192x96.Idx → EReal)
      = Cert.ReferenceIdeal.Read.val_main_v23 (F := Ideal) (m ((c.tc : Thread nD τ).loc main_arg3)) := by
  dsimp only [V]
  simp only [hostOps0, hostOps0_1, hostOps0_2, List.flatten_cons, List.flatten_nil, List.append_nil, List.cons_append,
    List.nil_append]
  after_results
  rfl

/-- The scale column the region finds is the reference's vector of reciprocal clamped degrees, reshaped to a column. -/
theorem inv_cast (c : Dev nD) :
    (V m c main_v19 : S50000x1.Idx → EReal)
      = shapeCast S50000x1 (Cert.ReferenceIdeal.Read.val_main_v18 (F := Ideal) (m ((c.tc : Thread nD τ).loc main_arg2)))
          shapeCasts_S50000_S50000x1 := by
  dsimp only [V]
  simp only [hostOps0, hostOps0_1, hostOps0_2, List.flatten_cons, List.flatten_nil, List.append_nil, List.cons_append,
    List.nil_append]
  after_results
  rfl

/-- Entry `(p, 0)` of the scale column is node `p`'s reciprocal clamped degree. -/
theorem inv_apply (c : Dev nD) (p : Fin 50000) :
    (V m c main_v19 : S50000x1.Idx → EReal) (ix2 p (0 : Fin 1))
      = Cert.ReferenceIdeal.Read.val_main_v18 (F := Ideal) (m ((c.tc : Thread nD τ).loc main_arg2)) (ix1 p) := by
  rw [inv_cast]
  exact Column.column_of_vector_apply _ _ p 0

end Cert.HostPrefix

end
-- ==== Proof.lean ====
/-
  The layer's kernel against its reference, over the extended reals.

  Both programs first compute, by the same host operations of the same arguments, the aggregate of the neighbours'
  features (a gather at the edges' source nodes, scatter-added at their destination nodes), the reciprocal of each
  node's degree clamped from below at 1, and the transposed weight. The reference then scales the aggregate by the
  reciprocal, joins it with the features, multiplies by the transposed weight, clamps at zero and divides every row
  by its Euclidean norm clamped from below at a small floor, all on whole arrays; the kernel does the same on blocks
  of 2000 rows, narrowing the two matrix operands to a 16-bit format first. On extended reals the narrowing is the
  identity, the device's product into the zero accumulator and the host's contraction are the same sum over the 192
  joined columns, and the two sums of squares are the same sum over the 96 columns: row by row both results are one
  function (`Cert.SageRow.out`) of that row's aggregate, features and scale and of the whole transposed weight. No
  law used needs the inputs to be finite, so the precondition is never opened.

  The kernel's frames are the generated ones; the reference's frame is its generated run with the result dropped;
  the idealization rewrote nothing, so there is nothing to preserve.
-/
import proofs.«128004_j16415365006092_1_alg».proof.Defs
import proofs.«128004_j16415365006092_1_alg».proof.Proof.Gen.Kernel
import proofs.«128004_j16415365006092_1_alg».proof.Proof.Gen.Kernel.Skeleton
import proofs.«128004_j16415365006092_1_alg».proof.Proof.Gen.Kernel.Launch
import proofs.«128004_j16415365006092_1_alg».proof.Proof.Gen.Kernel.Points
import proofs.«128004_j16415365006092_1_alg».proof.Proof.Gen.Kernel.Frame
import proofs.«128004_j16415365006092_1_alg».proof.Proof.Gen.KernelIdeal
import proofs.«128004_j16415365006092_1_alg».proof.Proof.Gen.KernelIdeal.Skeleton
import proofs.«128004_j16415365006092_1_alg».proof.Proof.Gen.KernelIdeal.Launch
import proofs.«128004_j16415365006092_1_alg».proof.Proof.Gen.KernelIdeal.Points
import proofs.«128004_j16415365006092_1_alg».proof.Proof.Gen.KernelIdeal.Frame
import proofs.«128004_j16415365006092_1_alg».proof.Proof.Gen.ReferenceIdeal
import proofs.«128004_j16415365006092_1_alg».proof.Proof.Gen.Pre_finite_inputs
import proofs.«128004_j16415365006092_1_alg».proof.Proof.Gen.KernelIdeal.Value
import proofs.«128004_j16415365006092_1_alg».proof.Proof.Gen.ReferenceIdeal.Run
import proofs.«128004_j16415365006092_1_alg».proof.Proof.Gen.ReferenceIdeal.Read
import proofs.«128004_j16415365006092_1_alg».proof.Proof.KernelArray
import proofs.«128004_j16415365006092_1_alg».proof.Proof.ReferenceRow
import proofs.«128004_j16415365006092_1_alg».proof.Proof.HostPrefix
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result array, the layer function of the arrays its region finds, is the reference's last stage of
    the same arguments: entry by entry both are the row function of the reference's own aggregate, features,
    reciprocal clamped degree and transposed weight. -/
theorem result_eq (m : (ℓ : Loc Cert.KernelIdeal.nD Cert.KernelIdeal.τ Cert.KernelIdeal.sig) → Buf (Elt Ideal) ℓ)
    (c : Dev Cert.KernelIdeal.nD) :
    Cert.KernelIdeal.ArrayValue.result m c
      = Cert.ReferenceIdeal.Read.val_main_v30 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨p, q, rfl⟩ : ∃ (p : Fin 50000) (q : Fin 96), i = ix2 p q := ⟨i 0, i 1, eq_ix2 i⟩
  rw [Cert.ReferenceIdeal.RowValue.out_apply]
  unfold Cert.KernelIdeal.ArrayValue.result
  rw [Cert.SageRow.layer_apply, Cert.HostPrefix.inv_apply, Cert.HostPrefix.agg_eq, Cert.HostPrefix.wt_eq,
    Cert.KernelIdeal.Gen.V_main_arg0]

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the layer function of the kernel's
    arrays as the result. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2]
  exact (result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
